-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048x2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  main_v73

def fn_part3 {F : FTy → Type} [FloatOps F] (main_arg11 : FVec F S2048x2048 .f32) (main_arg12 : FVec F S2048x2048 .f32) (main_arg13 : FVec F S2048 .f32) (main_arg14 : FVec F S2048x2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_v63 main_v67

def fn_part2 {F : FTy → Type} [FloatOps F] (main_arg7 : FVec F S2048 .f32) (main_arg8 : FVec F S2048x2048 .f32) (main_arg9 : FVec F S2048x2048 .f32) (main_arg10 : FVec F S2048 .f32) (main_arg11 : FVec F S2048x2048 .f32) (main_arg12 : FVec F S2048x2048 .f32) (main_arg13 : FVec F S2048 .f32) (main_arg14 : FVec F S2048x2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_v48 main_v49 main_v50

def fn_part1 {F : FTy → Type} [FloatOps F] (main_arg4 : FVec F S2048 .f32) (main_arg5 : FVec F S2048x2048 .f32) (main_arg6 : FVec F S2048x2048 .f32) (main_arg7 : FVec F S2048 .f32) (main_arg8 : FVec F S2048x2048 .f32) (main_arg9 : FVec F S2048x2048 .f32) (main_arg10 : FVec F S2048 .f32) (main_arg11 : FVec F S2048x2048 .f32) (main_arg12 : FVec F S2048x2048 .f32) (main_arg13 : FVec F S2048 .f32) (main_arg14 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) (main_arg5 : FVec F S2048x2048 .f32) (main_arg6 : FVec F S2048x2048 .f32) (main_arg7 : FVec F S2048 .f32) (main_arg8 : FVec F S2048x2048 .f32) (main_arg9 : FVec F S2048x2048 .f32) (main_arg10 : FVec F S2048 .f32) (main_arg11 : FVec F S2048x2048 .f32) (main_arg12 : FVec F S2048x2048 .f32) (main_arg13 : FVec F S2048 .f32) (main_arg14 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256x128 : Shape := ⟨2, ![256, 128]⟩
abbrev S128x2048 : Shape := ⟨2, ![128, 2048]⟩
abbrev S1x128 : Shape := ⟨2, ![1, 128]⟩

abbrev nBuf : Space → Nat
  | .hbm => 21
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S2048x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S4096x2048, .f32⟩
  | .hbm, ⟨20, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x128, .f32⟩
  | .local _ .vmem, ⟨5, _⟩ => ⟨S256x128, .f32⟩
  | .local _ .vmem, ⟨6, _⟩ => ⟨S128x2048, .f32⟩
  | .local _ .vmem, ⟨7, _⟩ => ⟨S128x2048, .f32⟩
  | .local _ .vmem, ⟨8, _⟩ => ⟨S1x128, .f32⟩
  | .local _ .vmem, ⟨9, _⟩ => ⟨S1x128, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S1x128, .f32⟩
  | .local _ .vmem, ⟨15, _⟩ => ⟨S1x128, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S1x128, .f32⟩
  | .local _ .vmem, ⟨21, _⟩ => ⟨S1x128, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S1x128, .f32⟩
  | .local _ .vmem, ⟨27, _⟩ => ⟨S1x128, .f32⟩
  | .local _ .vmem, ⟨28, _⟩ => ⟨S128x2048, .f32⟩
  | .local _ .vmem, ⟨29, _⟩ => ⟨S128x2048, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128x2048_S128x2048_0_0 : ∀ a, (![0, 0] : Fin 2 → Nat) a + S128x2048.size a ≤ S128x2048.size a
  h_S128x2048 : 0 < S128x2048.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  dot_S256x2048_S128x2048_S256x128_1_1_0_0_n_n_wf : DotDims.WF S256x2048 S128x2048 S256x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S4096x2048.size a
  hwx0_2 : ∀ i : grid0.Coords, EltTy.bits .f32 = 32 ∨ (Rect.block (s := S4096x2048) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S2048x2048.size a
  hwx0_3 : ∀ i : grid0.Coords, EltTy.bits .f32 = 32 ∨ (Rect.block (s := S2048x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x2048.size a
  hwx0_4 : ∀ i : grid0.Coords, EltTy.bits .f32 = 32 ∨ (Rect.block (s := S1x2048) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S2048x2048.size a
  hwx0_5 : ∀ i : grid0.Coords, EltTy.bits .f32 = 32 ∨ (Rect.block (s := S2048x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S2048x2048.size a
  hwx0_6 : ∀ i : grid0.Coords, EltTy.bits .f32 = 32 ∨ (Rect.block (s := S2048x2048) S128x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x2048.size a
  hwx0_7 : ∀ i : grid0.Coords, EltTy.bits .f32 = 32 ∨ (Rect.block (s := S1x2048) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S2048x2048.size a
  hwx0_8 : ∀ i : grid0.Coords, EltTy.bits .f32 = 32 ∨ (Rect.block (s := S2048x2048) S128x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S2048x2048.size a
  hwx0_9 : ∀ i : grid0.Coords, EltTy.bits .f32 = 32 ∨ (Rect.block (s := S2048x2048) S128x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x2048.size a
  hwx0_10 : ∀ i : grid0.Coords, EltTy.bits .f32 = 32 ∨ (Rect.block (s := S1x2048) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S2048x2048.size a
  hwx0_11 : ∀ i : grid0.Coords, EltTy.bits .f32 = 32 ∨ (Rect.block (s := S2048x2048) S128x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x2048.size a ≤ S2048x2048.size a
  hwx0_12 : ∀ i : grid0.Coords, EltTy.bits .f32 = 32 ∨ (Rect.block (s := S2048x2048) S128x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x2048.size a
  hwx0_13 : ∀ i : grid0.Coords, EltTy.bits .f32 = 32 ∨ (Rect.block (s := S1x2048) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x2048.size a ≤ S2048x2048.size a
  hwx0_14 : ∀ i : grid0.Coords, EltTy.bits .f32 = 32 ∨ (Rect.block (s := S2048x2048) S128x2048.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S4096x2048.size a
  hwx0_15 : ∀ i : grid0.Coords, EltTy.bits .f32 = 32 ∨ (Rect.block (s := S4096x2048) S256x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x128.size a ≤ S4096x2048.size a
  hwx0_16 : ∀ i : grid0.Coords, EltTy.bits .f32 = 32 ∨ (Rect.block (s := S4096x2048) S256x128.size (cc0_transform_16 i) (hinb0_16 i)).WholeWords (EltTy.packing .f32)

variable [Facts₀]

def dot_S256x2048_S128x2048_S256x128_1_1_0_0_n_n : DotDims S256x2048 S128x2048 S256x128 where
  lhsContracting := [1]
  rhsContracting := [1]
  lhsNonContracting := [0]
  rhsNonContracting := [0]
  lhsBatch := []
  rhsBatch := []
  wf := dot_S256x2048_S128x2048_S256x128_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x2048.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x2048.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v3) S1x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x2048.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v4_0) S256x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v4_1) S256x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048, .f32⟩
  | .hbm, ⟨14, _⟩ => ⟨S2048x2048, .f32⟩
  | .hbm, ⟨15, _⟩ => ⟨S2048x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S2048x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S2048x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S2048x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S2048x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S2048x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S2048x2048, .f32⟩
  | .hbm, ⟨49, _⟩ => ⟨S4096x2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S2048x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call1_cst : Ref sig .tc := ⟨.hbm, 34, rfl⟩
abbrev main_call1_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call2_cst : Ref sig .tc := ⟨.hbm, 45, rfl⟩
abbrev main_call2_v0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.LstmSpec.lean ====
/-
  The ReLU-gated LSTM cell as ONE function of its fifteen argument arrays, entry by entry, over the
  extended reals.

  For a batch row `r` and a hidden unit `j`, a gate's pre-activation is
      x[r, :] · Wx[j, :]  +  h[r, :] · Wh[j, :]  +  b[j]
  (both weight matrices are stored one row per hidden unit, so each product runs along the rows of
  both factors). The forget, input and output gates are `max(·, 0)` of their pre-activations, the
  candidate is `tanh` of its own, and
      c' = f · c + i · tanh(candidate),      h' = o · tanh(c').
  The only law used between two ways of computing this is that a sum of three extended reals does
  not depend on the order in which its last two terms are added; it needs no finiteness.
-/
import Idealize.ShloMosaic.PureOps.Ideal
import Idealize.ShloMosaic.Lib.ValueIdx

noncomputable section

namespace Cert.LstmCell

open Idealize.ShloMosaic Idealize.ShloMosaic.ValueIdx

/-- A batch of rows: 4096 rows of 2048 features. -/
abbrev Rows : Shape := ⟨2, ![4096, 2048]⟩
/-- A weight matrix: one row of 2048 input features per hidden unit. -/
abbrev Wts : Shape := ⟨2, ![2048, 2048]⟩
/-- A bias: one entry per hidden unit. -/
abbrev Bias : Shape := ⟨1, ![2048]⟩

/-- Row `r` of `a` against row `j` of `w`: the `(r, j)` entry of `a · wᵀ`. -/
def rowDot (a : Rows.Idx → EReal) (w : Wts.Idx → EReal) (r : Fin 4096) (j : Fin 2048) : EReal :=
  ∑ k : Fin 2048, a (ix2 r k) * w (ix2 j k)

/-- A gate's pre-activation at `(r, j)`: the two products first, then the bias. -/
def preact (x h : Rows.Idx → EReal) (wx wh : Wts.Idx → EReal) (b : Bias.Idx → EReal)
    (r : Fin 4096) (j : Fin 2048) : EReal :=
  rowDot x wx r j + rowDot h wh r j + b (ix1 j)

/-- Adding the bias between the two products gives the same pre-activation: addition of extended
    reals is commutative and associative (at the infinities too). -/
theorem preact_bias_between (x h : Rows.Idx → EReal) (wx wh : Wts.Idx → EReal) (b : Bias.Idx → EReal)
    (r : Fin 4096) (j : Fin 2048) :
    rowDot x wx r j + b (ix1 j) + rowDot h wh r j = preact x h wx wh b r j :=
  add_right_comm _ _ _

/-- The new cell state at `(r, j)`. -/
def cellAt (x h c : Rows.Idx → EReal) (wfx : Wts.Idx → EReal) (bf : Bias.Idx → EReal) (wfh wix : Wts.Idx → EReal)
    (bi : Bias.Idx → EReal) (wih wcx : Wts.Idx → EReal) (bc : Bias.Idx → EReal) (wch : Wts.Idx → EReal)
    (r : Fin 4096) (j : Fin 2048) : EReal :=
  max (preact x h wfx wfh bf r j) 0 * c (ix2 r j)
    + max (preact x h wix wih bi r j) 0 * Ideal.tanh (preact x h wcx wch bc r j)

/-- The new hidden state at `(r, j)`. -/
def hiddenAt (x h c : Rows.Idx → EReal) (wfx : Wts.Idx → EReal) (bf : Bias.Idx → EReal) (wfh wix : Wts.Idx → EReal)
    (bi : Bias.Idx → EReal) (wih wcx : Wts.Idx → EReal) (bc : Bias.Idx → EReal) (wch wox : Wts.Idx → EReal)
    (bo : Bias.Idx → EReal) (woh : Wts.Idx → EReal) (r : Fin 4096) (j : Fin 2048) : EReal :=
  max (preact x h wox woh bo r j) 0 * Ideal.tanh (cellAt x h c wfx bf wfh wix bi wih wcx bc wch r j)

/-- The new cell state as a whole array. -/
def cellNew (x h c : Rows.Idx → EReal) (wfx : Wts.Idx → EReal) (bf : Bias.Idx → EReal) (wfh wix : Wts.Idx → EReal)
    (bi : Bias.Idx → EReal) (wih wcx : Wts.Idx → EReal) (bc : Bias.Idx → EReal) (wch : Wts.Idx → EReal) :
    Rows.Idx → EReal :=
  fun i => cellAt x h c wfx bf wfh wix bi wih wcx bc wch (i 0) (i 1)

/-- The new hidden state as a whole array. -/
def hiddenNew (x h c : Rows.Idx → EReal) (wfx : Wts.Idx → EReal) (bf : Bias.Idx → EReal) (wfh wix : Wts.Idx → EReal)
    (bi : Bias.Idx → EReal) (wih wcx : Wts.Idx → EReal) (bc : Bias.Idx → EReal) (wch wox : Wts.Idx → EReal)
    (bo : Bias.Idx → EReal) (woh : Wts.Idx → EReal) : Rows.Idx → EReal :=
  fun i => hiddenAt x h c wfx bf wfh wix bi wih wcx bc wch wox bo woh (i 0) (i 1)

end Cert.LstmCell

end
-- ==== Proof.TileGates.lean ====
/-
  One tile of the cell: what the kernel's body computes from the blocks it loads, read at one entry.

  A tile is 256 batch rows by 128 hidden units. The body loads the tile's 256 rows of `x` and `h`
  (all 2048 features), the 128 rows of each weight matrix that belong to the tile's hidden units, the
  matching 128 entries of each bias (as one row), and the tile of `c`. Its matrix products contract the
  LAST axis of both operands, so entry `(p, q)` of a product is row `p` of the left block against row
  `q` of the right block; the narrowing of the operands to a shorter float format before the product
  is the identity on extended reals.
-/
import proofs.«105391_j16071767621782_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.LstmCell.Tile

open Cert.KernelIdeal Cert.KernelIdeal.Gen Idealize.ShloMosaic Idealize.ShloMosaic.ValueIdx

/-! ## The product of two blocks along their rows -/

/-- The left operand's row is the output's row. -/
theorem lhs_row (i : S256x128.Idx) (q : dot_S256x2048_S128x2048_S256x128_1_1_0_0_n_n.contr.Idx) :
    (dot_S256x2048_S128x2048_S256x128_1_1_0_0_n_n.lhsIdx i q 0).val = (i 0).val := by
  unfold DotDims.lhsIdx
  rw [dif_neg (show ¬(0 : Fin S256x2048.rank) ∈ dot_S256x2048_S128x2048_S256x128_1_1_0_0_n_n.lhsBatch by decide), dif_pos (show (0 : Fin S256x2048.rank) ∈ dot_S256x2048_S128x2048_S256x128_1_1_0_0_n_n.lhsNonContracting by decide)]
  rfl
/-- The left operand's column is the summation index. -/
theorem lhs_col (i : S256x128.Idx) (q : dot_S256x2048_S128x2048_S256x128_1_1_0_0_n_n.contr.Idx) :
    (dot_S256x2048_S128x2048_S256x128_1_1_0_0_n_n.lhsIdx i q 1).val = (q ⟨0, by decide⟩).val :=
  dot_S256x2048_S128x2048_S256x128_1_1_0_0_n_n.lhsIdx_val_of_single rfl i q
/-- The right operand's row is the output's column. -/
theorem rhs_row (i : S256x128.Idx) (q : dot_S256x2048_S128x2048_S256x128_1_1_0_0_n_n.contr.Idx) :
    (dot_S256x2048_S128x2048_S256x128_1_1_0_0_n_n.rhsIdx i q 0).val = (i 1).val := by
  unfold DotDims.rhsIdx
  rw [dif_neg (show ¬(0 : Fin S128x2048.rank) ∈ dot_S256x2048_S128x2048_S256x128_1_1_0_0_n_n.rhsBatch by decide), dif_pos (show (0 : Fin S128x2048.rank) ∈ dot_S256x2048_S128x2048_S256x128_1_1_0_0_n_n.rhsNonContracting by decide)]
  rfl
/-- The right operand's column is the summation index. -/
theorem rhs_col (i : S256x128.Idx) (q : dot_S256x2048_S128x2048_S256x128_1_1_0_0_n_n.contr.Idx) :
    (dot_S256x2048_S128x2048_S256x128_1_1_0_0_n_n.rhsIdx i q 1).val = (q ⟨0, by decide⟩).val :=
  dot_S256x2048_S128x2048_S256x128_1_1_0_0_n_n.rhsIdx_val_of_single rfl i q

/-- Into a zero accumulator, entry `(p, q)` of the product is the sum over the 2048 features of row `p` of the left
    block times row `q` of the right block. -/
theorem matmul_rows (l : FVec Ideal S256x2048 .bf16) (r : FVec Ideal S128x2048 .bf16) (p : Fin 256) (q : Fin 128) :
    matmul dot_S256x2048_S128x2048_S256x128_1_1_0_0_n_n none l r (constant (F := Ideal) S256x128 .f32 0x00000000#32) (ix2 p q)
      = ∑ k : Fin 2048, l (ix2 p k) * r (ix2 q k) := by
  simp only [matmul]
  rw [Ideal.matmul_constant_zero_apply, ← Equiv.sum_comp (ValueIdx.contrEquiv1 dot_S256x2048_S128x2048_S256x128_1_1_0_0_n_n 2048 rfl rfl).symm]
  refine Finset.sum_congr rfl fun k _ => ?_
  have hk := ValueIdx.contrEquiv1_symm_val dot_S256x2048_S128x2048_S256x128_1_1_0_0_n_n 2048 rfl rfl k
  have el : dot_S256x2048_S128x2048_S256x128_1_1_0_0_n_n.lhsIdx (ix2 p q) ((ValueIdx.contrEquiv1 dot_S256x2048_S128x2048_S256x128_1_1_0_0_n_n 2048 rfl rfl).symm k) = ix2 p k := funext fun a => Fin.ext (by
    match a with
    | ⟨0, _⟩ => exact lhs_row _ _
    | ⟨1, _⟩ => exact (lhs_col _ _).trans hk)
  have er : dot_S256x2048_S128x2048_S256x128_1_1_0_0_n_n.rhsIdx (ix2 p q) ((ValueIdx.contrEquiv1 dot_S256x2048_S128x2048_S256x128_1_1_0_0_n_n 2048 rfl rfl).symm k) = ix2 q k := funext fun a => Fin.ext (by
    match a with
    | ⟨0, _⟩ => exact rhs_row _ _
    | ⟨1, _⟩ => exact (rhs_col _ _).trans hk)
  rw [el, er]

/-! ## The bias row over the tile -/

/-- The bias block is one row of 128 entries; recast to its own shape and repeated down the tile's 256 rows, it reads
    at `(p, q)` its entry `q`. -/
theorem bias_rows (b : FVec Ideal S1x128 .f32) (hc : S1x128.ShapeCasts S1x128) (hb : S1x128.Broadcasts S256x128)
    (p : Fin 256) (q : Fin 128) :
    broadcastTo S256x128 (shapeCast S1x128 b hc) hb (ix2 p q) = b (ix2 (0 : Fin 1) q) := by
  rw [shapeCast_self]
  exact broadcastTo_1b_ab_apply b hb p q

/-! ## The body's values at an entry of the tile -/

/-- The zero the body takes the maximum against is the extended real `0`. -/
theorem zero_word : Scalar.ofBits (F := Ideal) .f32 0x00000000#32 = (0 : EReal) := Ideal.ofBits_zero_f32

/-- A gate's pre-activation at entry `(p, q)` of the tile, from the blocks the body loads: row `p` of the `x` block
    against row `q` of the gate's input-side weight block, plus row `p` of the `h` block against row `q` of its
    hidden-side weight block, plus entry `q` of the bias row. -/
def tilePre (x0 x1 : FVec Ideal S256x2048 .f32) (wx wh : FVec Ideal S128x2048 .f32) (b : FVec Ideal S1x128 .f32)
    (p : Fin 256) (q : Fin 128) : EReal :=
  (∑ k : Fin 2048, x0 (ix2 p k) * wx (ix2 q k)) + (∑ k : Fin 2048, x1 (ix2 p k) * wh (ix2 q k)) + b (ix2 (0 : Fin 1) q)

/-- The forget gate's pre-activation, as the body computes it. -/
theorem forget_pre_apply (x0 x1 : FVec Ideal S256x2048 .f32) (wx wh : FVec Ideal S128x2048 .f32) (b : FVec Ideal S1x128 .f32)
    (p : Fin 256) (q : Fin 128) :
    k0_pay5 (F := Ideal) x0 x1 wx wh b (ix2 p q) = tilePre x0 x1 wx wh b p q := by
  unfold k0_pay5 k0_pay3 k0_pay4 tilePre
  simp only [addf_apply, matmul_rows, bias_rows, truncf_apply]

/-- The input gate's pre-activation, as the body computes it. -/
theorem input_pre_apply (x0 x1 : FVec Ideal S256x2048 .f32) (wx wh : FVec Ideal S128x2048 .f32) (b : FVec Ideal S1x128 .f32)
    (p : Fin 256) (q : Fin 128) :
    k0_pay6 (F := Ideal) x0 x1 wx wh b (ix2 p q) = tilePre x0 x1 wx wh b p q := by
  unfold k0_pay6 k0_pay3 k0_pay4 tilePre
  simp only [addf_apply, matmul_rows, bias_rows, truncf_apply]

/-- The vector `tanh` at an entry. -/
theorem tanh_apply (v : FVec Ideal S256x128 .f32) (i : S256x128.Idx) : tanh v i = Ideal.tanh (v i) := rfl

/-- The new cell state at entry `(p, q)` of the tile, from the two gates' pre-activations `f`, `g` already formed, the
    tile of `c`, and the candidate's own blocks. -/
theorem cell_tile_apply (x0 x1 : FVec Ideal S256x2048 .f32) (c f g : FVec Ideal S256x128 .f32)
    (wcx wch : FVec Ideal S128x2048 .f32) (bc : FVec Ideal S1x128 .f32) (p : Fin 256) (q : Fin 128) :
    k0_pay1 (F := Ideal) (k0_pay3 x0) (k0_pay4 x1) c f g wcx wch bc (ix2 p q)
      = max (f (ix2 p q)) 0 * c (ix2 p q) + max (g (ix2 p q)) 0 * Ideal.tanh (tilePre x0 x1 wcx wch bc p q) := by
  unfold k0_pay1 k0_pay3 k0_pay4 tilePre
  simp only [addf_apply, mulf_apply, maximumf_apply, tanh_apply, broadcast_apply, zero_word, matmul_rows, bias_rows, truncf_apply]

/-- The new hidden state at entry `(p, q)` of the tile: the output gate times `tanh` of the new cell state there. -/
theorem hidden_tile_apply (x0 x1 : FVec Ideal S256x2048 .f32) (c f g : FVec Ideal S256x128 .f32)
    (wox woh : FVec Ideal S128x2048 .f32) (bo : FVec Ideal S1x128 .f32)
    (wcx wch : FVec Ideal S128x2048 .f32) (bc : FVec Ideal S1x128 .f32) (p : Fin 256) (q : Fin 128) :
    k0_pay2 (F := Ideal) (k0_pay3 x0) (k0_pay4 x1) c f g (k0_pay7 wox) (k0_pay8 woh) (constant (F := Ideal) S256x128 .f32 0x00000000#32) bo wcx wch bc (ix2 p q)
      = max (tilePre x0 x1 wox woh bo p q) 0
          * Ideal.tanh (k0_pay1 (F := Ideal) (k0_pay3 x0) (k0_pay4 x1) c f g wcx wch bc (ix2 p q)) := by
  unfold k0_pay2 k0_pay7 k0_pay8 tilePre
  simp only [addf_apply, mulf_apply, maximumf_apply, tanh_apply, broadcast_apply, zero_word, matmul_rows, bias_rows, truncf_apply]
  unfold k0_pay3 k0_pay4
  simp only [matmul_rows, truncf_apply]

end Cert.LstmCell.Tile

end
-- ==== Proof.TileStores.lean ====
/-
  What the body stores, entry by entry.

  The body stores each output tile once, whole, after loading every input block whole; so the tile it leaves is its
  stored value. Read at entry `(p, q)`: the new cell state is  max(f, 0) · c + max(i, 0) · tanh(g)  of the three gates'
  pre-activations there, and the new hidden state is  max(o, 0) · tanh  of that. If every loaded block is a restriction
  of a whole array, a tile's pre-activation is the array-level one at the tile's row and column.
-/
import proofs.«105391_j16071767621782_1_alg».proof.Proof.Gen.KernelIdeal.Frame
import proofs.«105391_j16071767621782_1_alg».proof.Proof.LstmSpec
import proofs.«105391_j16071767621782_1_alg».proof.Proof.TileGates

noncomputable section

namespace Cert.LstmCell.Tile

open Cert.KernelIdeal Cert.KernelIdeal.Gen Cert.LstmCell Idealize.ShloMosaic Idealize.ShloMosaic.ValueIdx

/-- Both offsets of a whole-block access are zero. -/
theorem zero_offsets : (![0, 0] : Fin 2 → Nat) = fun _ => 0 := funext fun a => by fin_cases a <;> rfl

/-- The new cell state at entry `(p, q)` of a tile, from the loaded blocks. -/
def tileCell (x0 x1 : FVec Ideal S256x2048 .f32) (c : FVec Ideal S256x128 .f32)
    (wfx : FVec Ideal S128x2048 .f32) (bf : FVec Ideal S1x128 .f32) (wfh wix : FVec Ideal S128x2048 .f32) (bi : FVec Ideal S1x128 .f32)
    (wih wcx : FVec Ideal S128x2048 .f32) (bc : FVec Ideal S1x128 .f32) (wch : FVec Ideal S128x2048 .f32)
    (p : Fin 256) (q : Fin 128) : EReal :=
  max (tilePre x0 x1 wfx wfh bf p q) 0 * c (ix2 p q)
    + max (tilePre x0 x1 wix wih bi p q) 0 * Ideal.tanh (tilePre x0 x1 wcx wch bc p q)

/-- The block the body leaves for the second output (the new cell state), at an entry. -/
theorem cell_store_apply (x0 x1 : Vec Ideal S256x2048 .f32) (x2 : Vec Ideal S256x128 .f32) (x3 : Vec Ideal S128x2048 .f32) (x4 : Vec Ideal S1x128 .f32)
    (x5 x6 : Vec Ideal S128x2048 .f32) (x7 : Vec Ideal S1x128 .f32) (x8 x9 : Vec Ideal S128x2048 .f32) (x10 : Vec Ideal S1x128 .f32)
    (x11 x12 : Vec Ideal S128x2048 .f32) (x13 : Vec Ideal S1x128 .f32) (x14 : Vec Ideal S128x2048 .f32) (p : Fin 256) (q : Fin 128) :
    out0_16 (F := Ideal) x0 x1 x2 x3 x4 x5 x6 x7 x8 x9 x10 x11 x12 x13 x14 (ix2 p q)
      = tileCell x0 x1 x2 x3 x4 x5 x6 x7 x8 x9 x10 x11 p q := by
  unfold out0_16
  rw [View.canon_unit_zero zero_offsets]
  simp only [View.ld_unit_zero (S := S256x2048) zero_offsets, View.ld_unit_zero (S := S256x128) zero_offsets,
    View.ld_unit_zero (S := S128x2048) zero_offsets, View.ld_unit_zero (S := S1x128) zero_offsets]
  rw [cell_tile_apply, forget_pre_apply, input_pre_apply]
  rfl

/-- The block the body leaves for the first output (the new hidden state), at an entry. -/
theorem hidden_store_apply (x0 x1 : Vec Ideal S256x2048 .f32) (x2 : Vec Ideal S256x128 .f32) (x3 : Vec Ideal S128x2048 .f32) (x4 : Vec Ideal S1x128 .f32)
    (x5 x6 : Vec Ideal S128x2048 .f32) (x7 : Vec Ideal S1x128 .f32) (x8 x9 : Vec Ideal S128x2048 .f32) (x10 : Vec Ideal S1x128 .f32)
    (x11 x12 : Vec Ideal S128x2048 .f32) (x13 : Vec Ideal S1x128 .f32) (x14 : Vec Ideal S128x2048 .f32) (p : Fin 256) (q : Fin 128) :
    out0_15 (F := Ideal) x0 x1 x2 x3 x4 x5 x6 x7 x8 x9 x10 x11 x12 x13 x14 (ix2 p q)
      = max (tilePre x0 x1 x12 x14 x13 p q) 0 * Ideal.tanh (tileCell x0 x1 x2 x3 x4 x5 x6 x7 x8 x9 x10 x11 p q) := by
  unfold out0_15
  rw [View.canon_unit_zero zero_offsets]
  simp only [View.ld_unit_zero (S := S256x2048) zero_offsets, View.ld_unit_zero (S := S256x128) zero_offsets,
    View.ld_unit_zero (S := S128x2048) zero_offsets, View.ld_unit_zero (S := S1x128) zero_offsets]
  rw [hidden_tile_apply, cell_tile_apply, forget_pre_apply, input_pre_apply]
  rfl

/-- If rows `p` of the `x` and `h` blocks are row `R` of the arrays, rows `q` of the two weight blocks are row `J` of the
    weight matrices, and entry `q` of the bias row is entry `J` of the bias, then the tile's pre-activation at `(p, q)` is the
    arrays' at `(R, J)`. -/
theorem tilePre_restrict (X H : Rows.Idx → EReal) (Wx Wh : Wts.Idx → EReal) (b : Bias.Idx → EReal)
    (x0 x1 : FVec Ideal S256x2048 .f32) (wx wh : FVec Ideal S128x2048 .f32) (bb : FVec Ideal S1x128 .f32)
    (R : Fin 4096) (J : Fin 2048) (p : Fin 256) (q : Fin 128)
    (h0 : ∀ k : Fin 2048, x0 (ix2 p k) = X (ix2 R k)) (h1 : ∀ k : Fin 2048, x1 (ix2 p k) = H (ix2 R k))
    (h2 : ∀ k : Fin 2048, wx (ix2 q k) = Wx (ix2 J k)) (h3 : ∀ k : Fin 2048, wh (ix2 q k) = Wh (ix2 J k))
    (h4 : bb (ix2 (0 : Fin 1) q) = b (ix1 J)) :
    tilePre x0 x1 wx wh bb p q = preact X H Wx Wh b R J := by
  simp only [tilePre, preact, rowDot, h0, h1, h2, h3, h4]

end Cert.LstmCell.Tile

end
-- ==== Proof.TilesToArrays.lean ====
/-
  From tiles to whole arrays.

  The grid has 16 × 16 points; point `t` works on tile row `t / 16` and tile column `t % 16`. Every window's block at
  `t` is a restriction of its array: the `x` and `h` blocks are the tile's 256 batch rows (all features), each weight block
  is the 128 weight rows of the tile's hidden units, each bias block is the matching 128 entries of the bias (which the
  host has recast from a vector to a one-row matrix), and the `c` block and both output blocks are the tile itself. So
  what point `t` writes back is the tile of the specification's arrays, and the 256 tiles cover both outputs.
-/
import proofs.«105391_j16071767621782_1_alg».proof.Proof.Gen.KernelIdeal.Value
import proofs.«105391_j16071767621782_1_alg».proof.Proof.LstmSpec
import proofs.«105391_j16071767621782_1_alg».proof.Proof.TileGates
import proofs.«105391_j16071767621782_1_alg».proof.Proof.TileStores
import Idealize.ShloMosaic.Lib.StableHlo.Run

noncomputable section

namespace Cert.LstmCell.Tiles

open Cert.KernelIdeal Cert.KernelIdeal.Gen Cert.LstmCell Cert.LstmCell.Tile
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The index maps, decided over the grid -/

/-- The `x` and `h` windows follow the tile row and take every feature. -/
theorem idx_rows : ∀ t : Fin cfg0.N,
    win0_0.index t (0 : Fin 2) = t.val / 16 ∧ win0_0.index t (1 : Fin 2) = 0
    ∧ win0_1.index t (0 : Fin 2) = t.val / 16 ∧ win0_1.index t (1 : Fin 2) = 0 :=
  (by decide +kernel : ∀ t : Fin grid0.N, _)

/-- The `c` window and both output windows follow the tile row and the tile column. -/
theorem idx_tile : ∀ t : Fin cfg0.N,
    win0_2.index t (0 : Fin 2) = t.val / 16 ∧ win0_2.index t (1 : Fin 2) = t.val % 16
    ∧ win0_15.index t (0 : Fin 2) = t.val / 16 ∧ win0_15.index t (1 : Fin 2) = t.val % 16
    ∧ win0_16.index t (0 : Fin 2) = t.val / 16 ∧ win0_16.index t (1 : Fin 2) = t.val % 16 :=
  (by decide +kernel : ∀ t : Fin grid0.N, _)

/-- The eight weight windows follow the tile column (as a block of weight rows) and take every feature. -/
theorem idx_wts : ∀ t : Fin cfg0.N,
    win0_3.index t (0 : Fin 2) = t.val % 16 ∧ win0_3.index t (1 : Fin 2) = 0
    ∧ win0_5.index t (0 : Fin 2) = t.val % 16 ∧ win0_5.index t (1 : Fin 2) = 0
    ∧ win0_6.index t (0 : Fin 2) = t.val % 16 ∧ win0_6.index t (1 : Fin 2) = 0
    ∧ win0_8.index t (0 : Fin 2) = t.val % 16 ∧ win0_8.index t (1 : Fin 2) = 0
    ∧ win0_9.index t (0 : Fin 2) = t.val % 16 ∧ win0_9.index t (1 : Fin 2) = 0
    ∧ win0_11.index t (0 : Fin 2) = t.val % 16 ∧ win0_11.index t (1 : Fin 2) = 0
    ∧ win0_12.index t (0 : Fin 2) = t.val % 16 ∧ win0_12.index t (1 : Fin 2) = 0
    ∧ win0_14.index t (0 : Fin 2) = t.val % 16 ∧ win0_14.index t (1 : Fin 2) = 0 :=
  (by decide +kernel : ∀ t : Fin grid0.N, _)

/-- The four bias windows sit on the one row and follow the tile column. -/
theorem idx_bias : ∀ t : Fin cfg0.N,
    win0_4.index t (0 : Fin 2) = 0 ∧ win0_4.index t (1 : Fin 2) = t.val % 16
    ∧ win0_7.index t (0 : Fin 2) = 0 ∧ win0_7.index t (1 : Fin 2) = t.val % 16
    ∧ win0_10.index t (0 : Fin 2) = 0 ∧ win0_10.index t (1 : Fin 2) = t.val % 16
    ∧ win0_13.index t (0 : Fin 2) = 0 ∧ win0_13.index t (1 : Fin 2) = t.val % 16 :=
  (by decide +kernel : ∀ t : Fin grid0.N, _)

/-- There are 256 points. -/
theorem point_lt (t : Fin cfg0.N) : t.val < 256 := lt_of_lt_of_eq t.isLt N_0

/-- The batch row of the array that row `p` of point `t`'s tile is. -/
def tileRow (t : Fin cfg0.N) (p : Fin 256) : Fin 4096 :=
  ⟨t.val / 16 * 256 + p.val, by have := point_lt t; have := p.isLt; omega⟩
/-- The hidden unit that column `q` of point `t`'s tile is. -/
def tileCol (t : Fin cfg0.N) (q : Fin 128) : Fin 2048 :=
  ⟨t.val % 16 * 128 + q.val, by have := q.isLt; omega⟩

/-! ## Where a block's entry sits in its array -/

/-- An entry of a 256-row block of all features, whose block index is (tile row, 0). -/
theorem rows_at (t : Fin cfg0.N) (p : Fin 256) (k : Fin 2048) (i0 i1 : Nat) (h0 : i0 = t.val / 16) (h1 : i1 = 0)
    (x : Rows.Idx) (hx0 : (x 0).val = i0 * 256 + 1 * p.val) (hx1 : (x 1).val = i1 * 2048 + 1 * k.val) :
    x = ix2 (tileRow t p) k := by
  funext a; apply Fin.ext
  match a with
  | ⟨0, _⟩ => show (x 0).val = t.val / 16 * 256 + p.val; omega
  | ⟨1, _⟩ => show (x 1).val = k.val; omega

/-- An entry of a tile-shaped block, whose block index is (tile row, tile column). -/
theorem tile_at (t : Fin cfg0.N) (p : Fin 256) (q : Fin 128) (i0 i1 : Nat) (h0 : i0 = t.val / 16) (h1 : i1 = t.val % 16)
    (x : Rows.Idx) (hx0 : (x 0).val = i0 * 256 + 1 * p.val) (hx1 : (x 1).val = i1 * 128 + 1 * q.val) :
    x = ix2 (tileRow t p) (tileCol t q) := by
  funext a; apply Fin.ext
  match a with
  | ⟨0, _⟩ => show (x 0).val = t.val / 16 * 256 + p.val; omega
  | ⟨1, _⟩ => show (x 1).val = t.val % 16 * 128 + q.val; omega

/-- An entry of a block of 128 weight rows, whose block index is (tile column, 0). -/
theorem wts_at (t : Fin cfg0.N) (q : Fin 128) (k : Fin 2048) (i0 i1 : Nat) (h0 : i0 = t.val % 16) (h1 : i1 = 0)
    (x : Wts.Idx) (hx0 : (x 0).val = i0 * 128 + 1 * q.val) (hx1 : (x 1).val = i1 * 2048 + 1 * k.val) :
    x = ix2 (tileCol t q) k := by
  funext a; apply Fin.ext
  match a with
  | ⟨0, _⟩ => show (x 0).val = t.val % 16 * 128 + q.val; omega
  | ⟨1, _⟩ => show (x 1).val = k.val; omega

/-- An entry of a bias block of 128 entries on the one row, whose block index is (0, tile column). -/
theorem bias_at (t : Fin cfg0.N) (q : Fin 128) (i0 i1 : Nat) (h0 : i0 = 0) (h1 : i1 = t.val % 16)
    (x : (⟨2, ![1, 2048]⟩ : Shape).Idx) (hx0 : (x 0).val = i0 * 1 + 1 * 0) (hx1 : (x 1).val = i1 * 128 + 1 * q.val) :
    x = ix2 (0 : Fin 1) (tileCol t q) := by
  funext a; apply Fin.ext
  match a with
  | ⟨0, _⟩ => show (x 0).val = 0; omega
  | ⟨1, _⟩ => show (x 1).val = t.val % 16 * 128 + q.val; omega

/-! ## Each block is a restriction of its array -/

/-- Entry `(p, q)` of the first output's block at `t` sits in the array at the tile's row and column. -/
theorem emb15 (t : Fin cfg0.N) (p : Fin 256) (q : Fin 128) :
    ((cfg0.win 15).blk t).view.emb (ix2 p q) = ix2 (tileRow t p) (tileCol t q) := by
  obtain ⟨-, -, e0, e1, -, -⟩ := idx_tile t
  exact tile_at t p q _ _ e0 e1 _ rfl rfl

/-- Entry `(p, q)` of the second output's block at `t` sits in the array at the tile's row and column. -/
theorem emb16 (t : Fin cfg0.N) (p : Fin 256) (q : Fin 128) :
    ((cfg0.win 16).blk t).view.emb (ix2 p q) = ix2 (tileRow t p) (tileCol t q) := by
  obtain ⟨-, -, -, -, e0, e1⟩ := idx_tile t
  exact tile_at t p q _ _ e0 e1 _ rfl rfl

/-- The `x` block at `t` is the tile's rows of `x`. -/
theorem x_read (c : Dev nD) (t : Fin cfg0.N) (p : Fin 256) (k : Fin 2048) :
    iblk m c 0 t (ix2 p k) = m ((c : Thread nD τ).loc main_arg0) (ix2 (tileRow t p) k) := by
  obtain ⟨e0, e1, -, -⟩ := idx_rows t
  show V m c main_arg0 (((cfg0.win 0).blk t).view.emb (ix2 p k)) = _
  rw [V_main_arg0]
  exact congrArg (m ((c : Thread nD τ).loc main_arg0)) (rows_at t p k _ _ e0 e1 _ rfl rfl)

/-- The `h` block at `t` is the tile's rows of `h`. -/
theorem h_read (c : Dev nD) (t : Fin cfg0.N) (p : Fin 256) (k : Fin 2048) :
    iblk m c 1 t (ix2 p k) = m ((c : Thread nD τ).loc main_arg1) (ix2 (tileRow t p) k) := by
  obtain ⟨-, -, e0, e1⟩ := idx_rows t
  show V m c main_arg1 (((cfg0.win 1).blk t).view.emb (ix2 p k)) = _
  rw [V_main_arg1]
  exact congrArg (m ((c : Thread nD τ).loc main_arg1)) (rows_at t p k _ _ e0 e1 _ rfl rfl)

/-- The `c` block at `t` is the tile of `c`. -/
theorem c_read (c : Dev nD) (t : Fin cfg0.N) (p : Fin 256) (q : Fin 128) :
    iblk m c 2 t (ix2 p q) = m ((c : Thread nD τ).loc main_arg2) (ix2 (tileRow t p) (tileCol t q)) := by
  obtain ⟨e0, e1, -, -, -, -⟩ := idx_tile t
  show V m c main_arg2 (((cfg0.win 2).blk t).view.emb (ix2 p q)) = _
  rw [V_main_arg2]
  exact congrArg (m ((c : Thread nD τ).loc main_arg2)) (tile_at t p q _ _ e0 e1 _ rfl rfl)

/-- The forget gate's input-side weight block at `t`: the weight rows of the tile's hidden units. -/
theorem wfx_read (c : Dev nD) (t : Fin cfg0.N) (q : Fin 128) (k : Fin 2048) :
    iblk m c 3 t (ix2 q k) = m ((c : Thread nD τ).loc main_arg3) (ix2 (tileCol t q) k) := by
  obtain ⟨e0, e1, -⟩ := idx_wts t
  show V m c main_arg3 (((cfg0.win 3).blk t).view.emb (ix2 q k)) = _
  rw [V_main_arg3]
  exact congrArg (m ((c : Thread nD τ).loc main_arg3)) (wts_at t q k _ _ e0 e1 _ rfl rfl)

/-- The forget gate's hidden-side weight block at `t`. -/
theorem wfh_read (c : Dev nD) (t : Fin cfg0.N) (q : Fin 128) (k : Fin 2048) :
    iblk m c 5 t (ix2 q k) = m ((c : Thread nD τ).loc main_arg5) (ix2 (tileCol t q) k) := by
  obtain ⟨-, -, e0, e1, -⟩ := idx_wts t
  show V m c main_arg5 (((cfg0.win 5).blk t).view.emb (ix2 q k)) = _
  rw [V_main_arg5]
  exact congrArg (m ((c : Thread nD τ).loc main_arg5)) (wts_at t q k _ _ e0 e1 _ rfl rfl)

/-- The input gate's input-side weight block at `t`. -/
theorem wix_read (c : Dev nD) (t : Fin cfg0.N) (q : Fin 128) (k : Fin 2048) :
    iblk m c 6 t (ix2 q k) = m ((c : Thread nD τ).loc main_arg6) (ix2 (tileCol t q) k) := by
  obtain ⟨-, -, -, -, e0, e1, -⟩ := idx_wts t
  show V m c main_arg6 (((cfg0.win 6).blk t).view.emb (ix2 q k)) = _
  rw [V_main_arg6]
  exact congrArg (m ((c : Thread nD τ).loc main_arg6)) (wts_at t q k _ _ e0 e1 _ rfl rfl)

/-- The input gate's hidden-side weight block at `t`. -/
theorem wih_read (c : Dev nD) (t : Fin cfg0.N) (q : Fin 128) (k : Fin 2048) :
    iblk m c 8 t (ix2 q k) = m ((c : Thread nD τ).loc main_arg8) (ix2 (tileCol t q) k) := by
  obtain ⟨-, -, -, -, -, -, e0, e1, -⟩ := idx_wts t
  show V m c main_arg8 (((cfg0.win 8).blk t).view.emb (ix2 q k)) = _
  rw [V_main_arg8]
  exact congrArg (m ((c : Thread nD τ).loc main_arg8)) (wts_at t q k _ _ e0 e1 _ rfl rfl)

/-- The candidate's input-side weight block at `t`. -/
theorem wcx_read (c : Dev nD) (t : Fin cfg0.N) (q : Fin 128) (k : Fin 2048) :
    iblk m c 9 t (ix2 q k) = m ((c : Thread nD τ).loc main_arg9) (ix2 (tileCol t q) k) := by
  obtain ⟨-, -, -, -, -, -, -, -, e0, e1, -⟩ := idx_wts t
  show V m c main_arg9 (((cfg0.win 9).blk t).view.emb (ix2 q k)) = _
  rw [V_main_arg9]
  exact congrArg (m ((c : Thread nD τ).loc main_arg9)) (wts_at t q k _ _ e0 e1 _ rfl rfl)

/-- The candidate's hidden-side weight block at `t`. -/
theorem wch_read (c : Dev nD) (t : Fin cfg0.N) (q : Fin 128) (k : Fin 2048) :
    iblk m c 11 t (ix2 q k) = m ((c : Thread nD τ).loc main_arg11) (ix2 (tileCol t q) k) := by
  obtain ⟨-, -, -, -, -, -, -, -, -, -, e0, e1, -⟩ := idx_wts t
  show V m c main_arg11 (((cfg0.win 11).blk t).view.emb (ix2 q k)) = _
  rw [V_main_arg11]
  exact congrArg (m ((c : Thread nD τ).loc main_arg11)) (wts_at t q k _ _ e0 e1 _ rfl rfl)

/-- The output gate's input-side weight block at `t`. -/
theorem wox_read (c : Dev nD) (t : Fin cfg0.N) (q : Fin 128) (k : Fin 2048) :
    iblk m c 12 t (ix2 q k) = m ((c : Thread nD τ).loc main_arg12) (ix2 (tileCol t q) k) := by
  obtain ⟨-, -, -, -, -, -, -, -, -, -, -, -, e0, e1, -⟩ := idx_wts t
  show V m c main_arg12 (((cfg0.win 12).blk t).view.emb (ix2 q k)) = _
  rw [V_main_arg12]
  exact congrArg (m ((c : Thread nD τ).loc main_arg12)) (wts_at t q k _ _ e0 e1 _ rfl rfl)

/-- The output gate's hidden-side weight block at `t`. -/
theorem woh_read (c : Dev nD) (t : Fin cfg0.N) (q : Fin 128) (k : Fin 2048) :
    iblk m c 14 t (ix2 q k) = m ((c : Thread nD τ).loc main_arg14) (ix2 (tileCol t q) k) := by
  obtain ⟨-, -, -, -, -, -, -, -, -, -, -, -, -, -, e0, e1⟩ := idx_wts t
  show V m c main_arg14 (((cfg0.win 14).blk t).view.emb (ix2 q k)) = _
  rw [V_main_arg14]
  exact congrArg (m ((c : Thread nD τ).loc main_arg14)) (wts_at t q k _ _ e0 e1 _ rfl rfl)

/-! ## The biases: recast by the host from a vector to one row -/

/-- The forget gate's bias as the region finds it. -/
theorem bf_entry (c : Dev nD) : (V m c main_v0 : S1x2048.Idx → EReal)
    = shapeCast S1x2048 (m ((c : Thread nD τ).loc main_arg4)) Facts₀.shapeCasts_S2048_S1x2048 := by
  dsimp only [Gen.V, Gen.hostOps0]; after_results; rfl
/-- The input gate's bias as the region finds it. -/
theorem bi_entry (c : Dev nD) : (V m c main_v1 : S1x2048.Idx → EReal)
    = shapeCast S1x2048 (m ((c : Thread nD τ).loc main_arg7)) Facts₀.shapeCasts_S2048_S1x2048 := by
  dsimp only [Gen.V, Gen.hostOps0]; after_results; rfl
/-- The candidate's bias as the region finds it. -/
theorem bc_entry (c : Dev nD) : (V m c main_v2 : S1x2048.Idx → EReal)
    = shapeCast S1x2048 (m ((c : Thread nD τ).loc main_arg10)) Facts₀.shapeCasts_S2048_S1x2048 := by
  dsimp only [Gen.V, Gen.hostOps0]; after_results; rfl
/-- The output gate's bias as the region finds it. -/
theorem bo_entry (c : Dev nD) : (V m c main_v3 : S1x2048.Idx → EReal)
    = shapeCast S1x2048 (m ((c : Thread nD τ).loc main_arg13)) Facts₀.shapeCasts_S2048_S1x2048 := by
  dsimp only [Gen.V, Gen.hostOps0]; after_results; rfl

/-- The forget gate's bias block at `t`: the bias entries of the tile's hidden units. -/
theorem bf_read (c : Dev nD) (t : Fin cfg0.N) (q : Fin 128) :
    iblk m c 4 t (ix2 (0 : Fin 1) q) = m ((c : Thread nD τ).loc main_arg4) (ix1 (tileCol t q)) := by
  obtain ⟨e0, e1, -⟩ := idx_bias t
  show V m c main_v0 (((cfg0.win 4).blk t).view.emb (ix2 (0 : Fin 1) q)) = _
  rw [bias_at t q _ _ e0 e1 (((cfg0.win 4).blk t).view.emb (ix2 (0 : Fin 1) q)) rfl rfl, bf_entry]
  exact shapeCast_a_1a_apply _ _ 0 (tileCol t q)

/-- The input gate's bias block at `t`. -/
theorem bi_read (c : Dev nD) (t : Fin cfg0.N) (q : Fin 128) :
    iblk m c 7 t (ix2 (0 : Fin 1) q) = m ((c : Thread nD τ).loc main_arg7) (ix1 (tileCol t q)) := by
  obtain ⟨-, -, e0, e1, -⟩ := idx_bias t
  show V m c main_v1 (((cfg0.win 7).blk t).view.emb (ix2 (0 : Fin 1) q)) = _
  rw [bias_at t q _ _ e0 e1 (((cfg0.win 7).blk t).view.emb (ix2 (0 : Fin 1) q)) rfl rfl, bi_entry]
  exact shapeCast_a_1a_apply _ _ 0 (tileCol t q)

/-- The candidate's bias block at `t`. -/
theorem bc_read (c : Dev nD) (t : Fin cfg0.N) (q : Fin 128) :
    iblk m c 10 t (ix2 (0 : Fin 1) q) = m ((c : Thread nD τ).loc main_arg10) (ix1 (tileCol t q)) := by
  obtain ⟨-, -, -, -, e0, e1, -⟩ := idx_bias t
  show V m c main_v2 (((cfg0.win 10).blk t).view.emb (ix2 (0 : Fin 1) q)) = _
  rw [bias_at t q _ _ e0 e1 (((cfg0.win 10).blk t).view.emb (ix2 (0 : Fin 1) q)) rfl rfl, bc_entry]
  exact shapeCast_a_1a_apply _ _ 0 (tileCol t q)

/-- The output gate's bias block at `t`. -/
theorem bo_read (c : Dev nD) (t : Fin cfg0.N) (q : Fin 128) :
    iblk m c 13 t (ix2 (0 : Fin 1) q) = m ((c : Thread nD τ).loc main_arg13) (ix1 (tileCol t q)) := by
  obtain ⟨-, -, -, -, -, -, e0, e1⟩ := idx_bias t
  show V m c main_v3 (((cfg0.win 13).blk t).view.emb (ix2 (0 : Fin 1) q)) = _
  rw [bias_at t q _ _ e0 e1 (((cfg0.win 13).blk t).view.emb (ix2 (0 : Fin 1) q)) rfl rfl, bo_entry]
  exact shapeCast_a_1a_apply _ _ 0 (tileCol t q)

end Cert.LstmCell.Tiles

end
-- ==== Proof.KernelArrays.lean ====
/-
  The kernel's two results as whole arrays.

  Point `t` writes back, for each output, the tile it computed; by the block reads that tile is the specification's array
  restricted to the tile. A batch row `r` and hidden unit `j` lie in the tile of point  (r / 256) · 16 + j / 128,  so the
  256 tiles cover both outputs and each ends holding the specification's array.
-/
import proofs.«105391_j16071767621782_1_alg».proof.Proof.TilesToArrays

noncomputable section

namespace Cert.LstmCell.Tiles

open Cert.KernelIdeal Cert.KernelIdeal.Gen Cert.LstmCell Cert.LstmCell.Tile
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The specification's new cell state of core `c`'s argument arrays. -/
def cellOf (c : Dev nD) : Rows.Idx → EReal :=
  cellNew (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The specification's new hidden state of core `c`'s argument arrays. -/
def hiddenOf (c : Dev nD) : Rows.Idx → EReal :=
  hiddenNew (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-! ## A tile's values are the arrays' at the tile's row and column -/

/-- The forget gate's pre-activation on point `t`'s tile. -/
theorem forget_at (c : Dev nD) (t : Fin cfg0.N) (p : Fin 256) (q : Fin 128) :
    tilePre (iblk m c 0 t) (iblk m c 1 t) (iblk m c 3 t) (iblk m c 5 t) (iblk m c 4 t) p q
      = preact (m ((c : Thread nD τ).loc main_arg0)) (m ((c : Thread nD τ).loc main_arg1)) (m ((c : Thread nD τ).loc main_arg3))
          (m ((c : Thread nD τ).loc main_arg5)) (m ((c : Thread nD τ).loc main_arg4)) (tileRow t p) (tileCol t q) :=
  tilePre_restrict _ _ _ _ _ (iblk m c 0 t) (iblk m c 1 t) (iblk m c 3 t) (iblk m c 5 t) (iblk m c 4 t) (tileRow t p) (tileCol t q) p q
    (x_read m c t p) (h_read m c t p) (wfx_read m c t q) (wfh_read m c t q) (bf_read m c t q)

/-- The input gate's pre-activation on point `t`'s tile. -/
theorem input_at (c : Dev nD) (t : Fin cfg0.N) (p : Fin 256) (q : Fin 128) :
    tilePre (iblk m c 0 t) (iblk m c 1 t) (iblk m c 6 t) (iblk m c 8 t) (iblk m c 7 t) p q
      = preact (m ((c : Thread nD τ).loc main_arg0)) (m ((c : Thread nD τ).loc main_arg1)) (m ((c : Thread nD τ).loc main_arg6))
          (m ((c : Thread nD τ).loc main_arg8)) (m ((c : Thread nD τ).loc main_arg7)) (tileRow t p) (tileCol t q) :=
  tilePre_restrict _ _ _ _ _ (iblk m c 0 t) (iblk m c 1 t) (iblk m c 6 t) (iblk m c 8 t) (iblk m c 7 t) (tileRow t p) (tileCol t q) p q
    (x_read m c t p) (h_read m c t p) (wix_read m c t q) (wih_read m c t q) (bi_read m c t q)

/-- The candidate's pre-activation on point `t`'s tile. -/
theorem candidate_at (c : Dev nD) (t : Fin cfg0.N) (p : Fin 256) (q : Fin 128) :
    tilePre (iblk m c 0 t) (iblk m c 1 t) (iblk m c 9 t) (iblk m c 11 t) (iblk m c 10 t) p q
      = preact (m ((c : Thread nD τ).loc main_arg0)) (m ((c : Thread nD τ).loc main_arg1)) (m ((c : Thread nD τ).loc main_arg9))
          (m ((c : Thread nD τ).loc main_arg11)) (m ((c : Thread nD τ).loc main_arg10)) (tileRow t p) (tileCol t q) :=
  tilePre_restrict _ _ _ _ _ (iblk m c 0 t) (iblk m c 1 t) (iblk m c 9 t) (iblk m c 11 t) (iblk m c 10 t) (tileRow t p) (tileCol t q) p q
    (x_read m c t p) (h_read m c t p) (wcx_read m c t q) (wch_read m c t q) (bc_read m c t q)

/-- The output gate's pre-activation on point `t`'s tile. -/
theorem output_at (c : Dev nD) (t : Fin cfg0.N) (p : Fin 256) (q : Fin 128) :
    tilePre (iblk m c 0 t) (iblk m c 1 t) (iblk m c 12 t) (iblk m c 14 t) (iblk m c 13 t) p q
      = preact (m ((c : Thread nD τ).loc main_arg0)) (m ((c : Thread nD τ).loc main_arg1)) (m ((c : Thread nD τ).loc main_arg12))
          (m ((c : Thread nD τ).loc main_arg14)) (m ((c : Thread nD τ).loc main_arg13)) (tileRow t p) (tileCol t q) :=
  tilePre_restrict _ _ _ _ _ (iblk m c 0 t) (iblk m c 1 t) (iblk m c 12 t) (iblk m c 14 t) (iblk m c 13 t) (tileRow t p) (tileCol t q) p q
    (x_read m c t p) (h_read m c t p) (wox_read m c t q) (woh_read m c t q) (bo_read m c t q)

/-- The new cell state on point `t`'s tile is the specification's at the tile's row and column. -/
theorem cell_at (c : Dev nD) (t : Fin cfg0.N) (p : Fin 256) (q : Fin 128) :
    tileCell (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) p q
      = cellOf m c (ix2 (tileRow t p) (tileCol t q)) := by
  unfold tileCell
  rw [forget_at, input_at, candidate_at, c_read]
  rfl

/-! ## What each point writes back -/

/-- Point `t` writes back to the second output the tile of the specification's new cell state. -/
theorem flushed16_eq (c : Dev nD) (t : Fin cfg0.N) :
    (dats m 0 c).flushed 16 t = ((cfg0.win 16).blk t).view.read (Elt Ideal) (cellOf m c) := by
  rw [Value.flushed16]
  funext y
  obtain ⟨p, q, rfl⟩ : ∃ (p : Fin 256) (q : Fin 128), y = ix2 p q := ⟨y 0, y 1, eq_ix2 y⟩
  show out0_16 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) (ix2 p q)
    = cellOf m c (((cfg0.win 16).blk t).view.emb (ix2 p q))
  rw [emb16, cell_store_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) p q]
  exact cell_at m c t p q

/-- Point `t` writes back to the first output the tile of the specification's new hidden state. -/
theorem flushed15_eq (c : Dev nD) (t : Fin cfg0.N) :
    (dats m 0 c).flushed 15 t = ((cfg0.win 15).blk t).view.read (Elt Ideal) (hiddenOf m c) := by
  rw [Value.flushed15]
  funext y
  obtain ⟨p, q, rfl⟩ : ∃ (p : Fin 256) (q : Fin 128), y = ix2 p q := ⟨y 0, y 1, eq_ix2 y⟩
  show out0_15 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) (ix2 p q)
    = hiddenOf m c (((cfg0.win 15).blk t).view.emb (ix2 p q))
  rw [emb15, hidden_store_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) p q,
    output_at, cell_at]
  rfl

/-! ## The tiles cover both outputs -/

/-- An entry of the array is in point `t`'s block of the first output iff each coordinate is in the block's range. -/
theorem mem_blk15 (t : Fin cfg0.N) (i : S4096x2048.Idx) :
    i ∈ ((cfg0.win 15).blk t).view.set ↔ ∀ a : Fin 2, win0_15.index t a * S256x128.size a ≤ (i a).val ∧ (i a).val < win0_15.index t a * S256x128.size a + S256x128.size a := by
  show i ∈ ((View.whole main_v4_0).slice (win0_15.rect t)).set ↔ _
  rw [View.set_slice_whole, Rect.mem_set_unit]
  exact Iff.rfl

/-- The same for the second output. -/
theorem mem_blk16 (t : Fin cfg0.N) (i : S4096x2048.Idx) :
    i ∈ ((cfg0.win 16).blk t).view.set ↔ ∀ a : Fin 2, win0_16.index t a * S256x128.size a ≤ (i a).val ∧ (i a).val < win0_16.index t a * S256x128.size a + S256x128.size a := by
  show i ∈ ((View.whole main_v4_1).slice (win0_16.rect t)).set ↔ _
  rw [View.set_slice_whole, Rect.mem_set_unit]
  exact Iff.rfl

/-- The point whose tile holds entry `i`: tile row `i₀ / 256`, tile column `i₁ / 128`. -/
def pointOf (i : S4096x2048.Idx) : Fin cfg0.N :=
  ⟨(i 0).val / 256 * 16 + (i 1).val / 128, lt_of_lt_of_eq
    (show (i 0).val / 256 * 16 + (i 1).val / 128 < 256 by
      have h0 : (i 0).val < 4096 := (i 0).isLt
      have h1 : (i 1).val < 2048 := (i 1).isLt
      omega) N_0.symm⟩

/-- Every entry of the first output is in some flushing point's block. -/
theorem cover15 (i : S4096x2048.Idx) : ∃ t : Fin cfg0.N, (cfg0.win 15).flush t = true ∧ i ∈ ((cfg0.win 15).blk t).view.set := by
  have h0 : (i 0).val < 4096 := (i 0).isLt
  have h1 : (i 1).val < 2048 := (i 1).isLt
  have ht : (pointOf i).val = (i 0).val / 256 * 16 + (i 1).val / 128 := rfl
  obtain ⟨-, -, e0, e1, -, -⟩ := idx_tile (pointOf i)
  refine ⟨pointOf i, flush0_15 _, ?_⟩
  rw [mem_blk15]
  intro a
  match a with
  | ⟨0, _⟩ => show win0_15.index (pointOf i) (0 : Fin 2) * 256 ≤ (i 0).val ∧ (i 0).val < win0_15.index (pointOf i) (0 : Fin 2) * 256 + 256; omega
  | ⟨1, _⟩ => show win0_15.index (pointOf i) (1 : Fin 2) * 128 ≤ (i 1).val ∧ (i 1).val < win0_15.index (pointOf i) (1 : Fin 2) * 128 + 128; omega

/-- Every entry of the second output is in some flushing point's block. -/
theorem cover16 (i : S4096x2048.Idx) : ∃ t : Fin cfg0.N, (cfg0.win 16).flush t = true ∧ i ∈ ((cfg0.win 16).blk t).view.set := by
  have h0 : (i 0).val < 4096 := (i 0).isLt
  have h1 : (i 1).val < 2048 := (i 1).isLt
  have ht : (pointOf i).val = (i 0).val / 256 * 16 + (i 1).val / 128 := rfl
  obtain ⟨-, -, -, -, e0, e1⟩ := idx_tile (pointOf i)
  refine ⟨pointOf i, flush0_16 _, ?_⟩
  rw [mem_blk16]
  intro a
  match a with
  | ⟨0, _⟩ => show win0_16.index (pointOf i) (0 : Fin 2) * 256 ≤ (i 0).val ∧ (i 0).val < win0_16.index (pointOf i) (0 : Fin 2) * 256 + 256; omega
  | ⟨1, _⟩ => show win0_16.index (pointOf i) (1 : Fin 2) * 128 ≤ (i 1).val ∧ (i 1).val < win0_16.index (pointOf i) (1 : Fin 2) * 128 + 128; omega

/-! ## The arrays after the run -/

/-- The first output ends holding the specification's new hidden state. -/
theorem final15 (c : Dev nD) : (dats m 0 c).arrAt 15 cfg0.N = hiddenOf m c :=
  (dats m 0 c).arrAt_eq_of_cover 15 (hiddenOf m c) (fun t _ => flushed15_eq m c t) cover15

/-- The second output ends holding the specification's new cell state. -/
theorem final16 (c : Dev nD) : (dats m 0 c).arrAt 16 cfg0.N = cellOf m c :=
  (dats m 0 c).arrAt_eq_of_cover 16 (cellOf m c) (fun t _ => flushed16_eq m c t) cover16

/-- The kernel's run: every weakly fair execution ends with the two results at the specification's arrays and the
    arguments unchanged. -/
theorem run (ρ : Dev nD → PrngReg) : θ_run defs (onTc (τ := τ) (main (F := Ideal))) ⟨m, fun _ => 0, ρ⟩ fun r => ∀ c : Dev nD,
      r.2.mem ((c : Thread nD τ).loc main_v4_0) = hiddenOf m c
      ∧ r.2.mem ((c : Thread nD τ).loc main_v4_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Value.run_blocks m ρ)

end Cert.LstmCell.Tiles

end
-- ==== Proof.RefGates.lean ====
/-
  The reference computes the cell entry by entry as the specification states it.

  On the host each gate's pre-activation is formed as  x · Wxᵀ  +  b  +  h · Whᵀ : the weight matrix is transposed first
  and then multiplied on the right, so entry `(r, j)` of a product is row `r` of the left factor against row `j` of the
  untransposed weights; the bias is repeated down the rows and added BETWEEN the two products. Apart from that order of
  a three-term sum, every stage is the specification's own operation at the entry.
-/
import proofs.«105391_j16071767621782_1_alg».proof.Proof.Gen.ReferenceIdeal.Read
import proofs.«105391_j16071767621782_1_alg».proof.Proof.LstmSpec

noncomputable section

namespace Cert.LstmCell.Ref

open Cert.ReferenceIdeal Cert.ReferenceIdeal.Read Cert.LstmCell Idealize.ShloMosaic Idealize.ShloMosaic.ValueIdx

/-- The host's zero, repeated over the whole array, is `0` at every entry. -/
theorem zero0 (i : S4096x2048.Idx) : val_main_call0_v0 (F := Ideal) i = (0 : EReal) := by
  rw [val_main_call0_v0_apply, val_main_call0_cst_apply, Ideal.ofBits_def, Ideal.ofBits_zero_f32]
theorem zero1 (i : S4096x2048.Idx) : val_main_call1_v0 (F := Ideal) i = (0 : EReal) := by
  rw [val_main_call1_v0_apply, val_main_call1_cst_apply, Ideal.ofBits_def, Ideal.ofBits_zero_f32]
theorem zero2 (i : S4096x2048.Idx) : val_main_call2_v0 (F := Ideal) i = (0 : EReal) := by
  rw [val_main_call2_v0_apply, val_main_call2_cst_apply, Ideal.ofBits_def, Ideal.ofBits_zero_f32]

/-- The forget gate's pre-activation on the host. -/
theorem forget_pre (x0 x1 : (⟨S4096x2048, .f32⟩ : BufTy).Contents (Elt Ideal)) (x3 : (⟨S2048x2048, .f32⟩ : BufTy).Contents (Elt Ideal))
    (x4 : (⟨S2048, .f32⟩ : BufTy).Contents (Elt Ideal)) (x5 : (⟨S2048x2048, .f32⟩ : BufTy).Contents (Elt Ideal)) (r : Fin 4096) (j : Fin 2048) :
    val_main_v7 (F := Ideal) x0 x1 x3 x4 x5 (ix2 r j) = preact x0 x1 x3 x5 x4 r j := by
  rw [val_main_v7_apply, val_main_v4_apply, val_main_v1_apply, val_main_v3_apply, val_main_v2_apply, val_main_v6_apply]
  simp only [val_main_v0_apply, val_main_v5_apply]
  have e1 : ∀ k : Fin 2048, lidx_main_v1 (ix2 r j) k = ix2 r k := fun k => funext fun a => by match a with | ⟨0, _⟩ => rfl | ⟨1, _⟩ => rfl
  have e2 : ∀ k : Fin 2048, idx_main_v0 (ridx_main_v1 (ix2 r j) k) = ix2 j k := fun k => funext fun a => by match a with | ⟨0, _⟩ => rfl | ⟨1, _⟩ => rfl
  have e3 : ∀ k : Fin 2048, lidx_main_v6 (ix2 r j) k = ix2 r k := fun k => funext fun a => by match a with | ⟨0, _⟩ => rfl | ⟨1, _⟩ => rfl
  have e4 : ∀ k : Fin 2048, idx_main_v5 (ridx_main_v6 (ix2 r j) k) = ix2 j k := fun k => funext fun a => by match a with | ⟨0, _⟩ => rfl | ⟨1, _⟩ => rfl
  have e5 : idx_main_v2 (idx_main_v3 (ix2 r j)) = ix1 j := funext fun a => by match a with | ⟨0, _⟩ => rfl
  simp only [e1, e2, e3, e4, e5, Ideal.addf_def]
  exact preact_bias_between x0 x1 x3 x5 x4 r j

/-- The input gate's pre-activation on the host. -/
theorem input_pre (x0 x1 : (⟨S4096x2048, .f32⟩ : BufTy).Contents (Elt Ideal)) (x6 : (⟨S2048x2048, .f32⟩ : BufTy).Contents (Elt Ideal))
    (x7 : (⟨S2048, .f32⟩ : BufTy).Contents (Elt Ideal)) (x8 : (⟨S2048x2048, .f32⟩ : BufTy).Contents (Elt Ideal)) (r : Fin 4096) (j : Fin 2048) :
    val_main_v16 (F := Ideal) x0 x1 x6 x7 x8 (ix2 r j) = preact x0 x1 x6 x8 x7 r j := by
  rw [val_main_v16_apply, val_main_v13_apply, val_main_v10_apply, val_main_v12_apply, val_main_v11_apply, val_main_v15_apply]
  simp only [val_main_v9_apply, val_main_v14_apply]
  have e1 : ∀ k : Fin 2048, lidx_main_v10 (ix2 r j) k = ix2 r k := fun k => funext fun a => by match a with | ⟨0, _⟩ => rfl | ⟨1, _⟩ => rfl
  have e2 : ∀ k : Fin 2048, idx_main_v9 (ridx_main_v10 (ix2 r j) k) = ix2 j k := fun k => funext fun a => by match a with | ⟨0, _⟩ => rfl | ⟨1, _⟩ => rfl
  have e3 : ∀ k : Fin 2048, lidx_main_v15 (ix2 r j) k = ix2 r k := fun k => funext fun a => by match a with | ⟨0, _⟩ => rfl | ⟨1, _⟩ => rfl
  have e4 : ∀ k : Fin 2048, idx_main_v14 (ridx_main_v15 (ix2 r j) k) = ix2 j k := fun k => funext fun a => by match a with | ⟨0, _⟩ => rfl | ⟨1, _⟩ => rfl
  have e5 : idx_main_v11 (idx_main_v12 (ix2 r j)) = ix1 j := funext fun a => by match a with | ⟨0, _⟩ => rfl
  simp only [e1, e2, e3, e4, e5, Ideal.addf_def]
  exact preact_bias_between x0 x1 x6 x8 x7 r j

/-- The output gate's pre-activation on the host. -/
theorem output_pre (x0 x1 : (⟨S4096x2048, .f32⟩ : BufTy).Contents (Elt Ideal)) (x12 : (⟨S2048x2048, .f32⟩ : BufTy).Contents (Elt Ideal))
    (x13 : (⟨S2048, .f32⟩ : BufTy).Contents (Elt Ideal)) (x14 : (⟨S2048x2048, .f32⟩ : BufTy).Contents (Elt Ideal)) (r : Fin 4096) (j : Fin 2048) :
    val_main_v25 (F := Ideal) x0 x1 x12 x13 x14 (ix2 r j) = preact x0 x1 x12 x14 x13 r j := by
  rw [val_main_v25_apply, val_main_v22_apply, val_main_v19_apply, val_main_v21_apply, val_main_v20_apply, val_main_v24_apply]
  simp only [val_main_v18_apply, val_main_v23_apply]
  have e1 : ∀ k : Fin 2048, lidx_main_v19 (ix2 r j) k = ix2 r k := fun k => funext fun a => by match a with | ⟨0, _⟩ => rfl | ⟨1, _⟩ => rfl
  have e2 : ∀ k : Fin 2048, idx_main_v18 (ridx_main_v19 (ix2 r j) k) = ix2 j k := fun k => funext fun a => by match a with | ⟨0, _⟩ => rfl | ⟨1, _⟩ => rfl
  have e3 : ∀ k : Fin 2048, lidx_main_v24 (ix2 r j) k = ix2 r k := fun k => funext fun a => by match a with | ⟨0, _⟩ => rfl | ⟨1, _⟩ => rfl
  have e4 : ∀ k : Fin 2048, idx_main_v23 (ridx_main_v24 (ix2 r j) k) = ix2 j k := fun k => funext fun a => by match a with | ⟨0, _⟩ => rfl | ⟨1, _⟩ => rfl
  have e5 : idx_main_v20 (idx_main_v21 (ix2 r j)) = ix1 j := funext fun a => by match a with | ⟨0, _⟩ => rfl
  simp only [e1, e2, e3, e4, e5, Ideal.addf_def]
  exact preact_bias_between x0 x1 x12 x14 x13 r j

/-- The candidate's pre-activation on the host. -/
theorem candidate_pre (x0 x1 : (⟨S4096x2048, .f32⟩ : BufTy).Contents (Elt Ideal)) (x9 : (⟨S2048x2048, .f32⟩ : BufTy).Contents (Elt Ideal))
    (x10 : (⟨S2048, .f32⟩ : BufTy).Contents (Elt Ideal)) (x11 : (⟨S2048x2048, .f32⟩ : BufTy).Contents (Elt Ideal)) (r : Fin 4096) (j : Fin 2048) :
    val_main_v34 (F := Ideal) x0 x1 x9 x10 x11 (ix2 r j) = preact x0 x1 x9 x11 x10 r j := by
  rw [val_main_v34_apply, val_main_v31_apply, val_main_v28_apply, val_main_v30_apply, val_main_v29_apply, val_main_v33_apply]
  simp only [val_main_v27_apply, val_main_v32_apply]
  have e1 : ∀ k : Fin 2048, lidx_main_v28 (ix2 r j) k = ix2 r k := fun k => funext fun a => by match a with | ⟨0, _⟩ => rfl | ⟨1, _⟩ => rfl
  have e2 : ∀ k : Fin 2048, idx_main_v27 (ridx_main_v28 (ix2 r j) k) = ix2 j k := fun k => funext fun a => by match a with | ⟨0, _⟩ => rfl | ⟨1, _⟩ => rfl
  have e3 : ∀ k : Fin 2048, lidx_main_v33 (ix2 r j) k = ix2 r k := fun k => funext fun a => by match a with | ⟨0, _⟩ => rfl | ⟨1, _⟩ => rfl
  have e4 : ∀ k : Fin 2048, idx_main_v32 (ridx_main_v33 (ix2 r j) k) = ix2 j k := fun k => funext fun a => by match a with | ⟨0, _⟩ => rfl | ⟨1, _⟩ => rfl
  have e5 : idx_main_v29 (idx_main_v30 (ix2 r j)) = ix1 j := funext fun a => by match a with | ⟨0, _⟩ => rfl
  simp only [e1, e2, e3, e4, e5, Ideal.addf_def]
  exact preact_bias_between x0 x1 x9 x11 x10 r j

/-- The reference's second result is the specification's new cell state. -/
theorem cell_eq (x0 x1 x2 : (⟨S4096x2048, .f32⟩ : BufTy).Contents (Elt Ideal)) (x3 : (⟨S2048x2048, .f32⟩ : BufTy).Contents (Elt Ideal))
    (x4 : (⟨S2048, .f32⟩ : BufTy).Contents (Elt Ideal)) (x5 x6 : (⟨S2048x2048, .f32⟩ : BufTy).Contents (Elt Ideal))
    (x7 : (⟨S2048, .f32⟩ : BufTy).Contents (Elt Ideal)) (x8 x9 : (⟨S2048x2048, .f32⟩ : BufTy).Contents (Elt Ideal))
    (x10 : (⟨S2048, .f32⟩ : BufTy).Contents (Elt Ideal)) (x11 : (⟨S2048x2048, .f32⟩ : BufTy).Contents (Elt Ideal)) :
    val_main_v38 (F := Ideal) x0 x1 x2 x3 x4 x5 x6 x7 x8 x9 x10 x11 = cellNew x0 x1 x2 x3 x4 x5 x6 x7 x8 x9 x10 x11 := by
  funext i
  obtain ⟨r, j, rfl⟩ : ∃ (r : Fin 4096) (j : Fin 2048), i = ix2 r j := ⟨i 0, i 1, eq_ix2 i⟩
  rw [val_main_v38_apply, val_main_v36_apply, val_main_v37_apply, val_main_v8_apply, val_main_v17_apply, val_main_v35_apply,
    forget_pre, input_pre, candidate_pre, zero0, zero1]
  rfl

/-- The reference's first result is the specification's new hidden state. -/
theorem hidden_eq (x0 x1 x2 : (⟨S4096x2048, .f32⟩ : BufTy).Contents (Elt Ideal)) (x3 : (⟨S2048x2048, .f32⟩ : BufTy).Contents (Elt Ideal))
    (x4 : (⟨S2048, .f32⟩ : BufTy).Contents (Elt Ideal)) (x5 x6 : (⟨S2048x2048, .f32⟩ : BufTy).Contents (Elt Ideal))
    (x7 : (⟨S2048, .f32⟩ : BufTy).Contents (Elt Ideal)) (x8 x9 : (⟨S2048x2048, .f32⟩ : BufTy).Contents (Elt Ideal))
    (x10 : (⟨S2048, .f32⟩ : BufTy).Contents (Elt Ideal)) (x11 x12 : (⟨S2048x2048, .f32⟩ : BufTy).Contents (Elt Ideal))
    (x13 : (⟨S2048, .f32⟩ : BufTy).Contents (Elt Ideal)) (x14 : (⟨S2048x2048, .f32⟩ : BufTy).Contents (Elt Ideal)) :
    val_main_v40 (F := Ideal) x0 x1 x2 x3 x4 x5 x6 x7 x8 x9 x10 x11 x12 x13 x14
      = hiddenNew x0 x1 x2 x3 x4 x5 x6 x7 x8 x9 x10 x11 x12 x13 x14 := by
  funext i
  obtain ⟨r, j, rfl⟩ : ∃ (r : Fin 4096) (j : Fin 2048), i = ix2 r j := ⟨i 0, i 1, eq_ix2 i⟩
  rw [val_main_v40_apply, val_main_v26_apply, val_main_v39_apply, output_pre, zero2, cell_eq]
  rfl

end Cert.LstmCell.Ref

end
-- ==== Proof.lean ====
/-
  A ReLU-gated LSTM cell, fused into one kernel over 256 × 128 tiles of the (batch × hidden) result, against the same
  cell written with whole-array operations.

  For batch row `r` and hidden unit `j` each of the four gates has the pre-activation
      x[r, :] · Wx[j, :]  +  h[r, :] · Wh[j, :]  +  b[j],
  the forget, input and output gates are its maximum with zero, the candidate is its `tanh`, and
      c' = f · c + i · tanh(candidate),      h' = o · tanh(c').
  Over the extended reals the kernel and the reference differ in two ways only. The kernel narrows its matrix operands
  to a shorter float format before multiplying, which is the identity there; and it adds the bias after both products
  where the reference adds it between them, which is the same sum because addition of extended reals is commutative
  and associative (no finiteness is used, so the precondition is never opened). The kernel's tiling is accounted for
  by reading each block as a restriction of its array and covering each output by the 256 tiles.

  `LstmSpec` states the cell as one function of the arrays; `TileGates` and `TileStores` read the kernel body's values on
  a tile; `TilesToArrays` and `KernelArrays` carry the tiles to the whole arrays and give the kernel's run; `RefGates`
  reads the reference's stages as the same function.
-/
import proofs.«105391_j16071767621782_1_alg».proof.Defs
import proofs.«105391_j16071767621782_1_alg».proof.Proof.Gen.Kernel
import proofs.«105391_j16071767621782_1_alg».proof.Proof.Gen.Kernel.Skeleton
import proofs.«105391_j16071767621782_1_alg».proof.Proof.Gen.Kernel.Launch
import proofs.«105391_j16071767621782_1_alg».proof.Proof.Gen.Kernel.Points
import proofs.«105391_j16071767621782_1_alg».proof.Proof.Gen.Kernel.Frame
import proofs.«105391_j16071767621782_1_alg».proof.Proof.Gen.KernelIdeal
import proofs.«105391_j16071767621782_1_alg».proof.Proof.Gen.KernelIdeal.Skeleton
import proofs.«105391_j16071767621782_1_alg».proof.Proof.Gen.KernelIdeal.Launch
import proofs.«105391_j16071767621782_1_alg».proof.Proof.Gen.KernelIdeal.Points
import proofs.«105391_j16071767621782_1_alg».proof.Proof.Gen.KernelIdeal.Frame
import proofs.«105391_j16071767621782_1_alg».proof.Proof.Gen.ReferenceIdeal
import proofs.«105391_j16071767621782_1_alg».proof.Proof.Gen.Pre_finite_inputs
import proofs.«105391_j16071767621782_1_alg».proof.Proof.Gen.KernelIdeal.Value
import proofs.«105391_j16071767621782_1_alg».proof.Proof.Gen.ReferenceIdeal.Run
import proofs.«105391_j16071767621782_1_alg».proof.Proof.Gen.ReferenceIdeal.Read
import proofs.«105391_j16071767621782_1_alg».proof.Proof.KernelArrays
import proofs.«105391_j16071767621782_1_alg».proof.Proof.RefGates
import Idealize.ShloMosaic.Adequacy
import Idealize.ShloMosaic.Init

noncomputable section

namespace Cert.Proof

open Idealize.ShloMosaic Idealize.SL.Sem

/-- The word-level kernel runs, and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of whole-array operations: it runs, and writes no argument. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, the kernel ends with the specification's two arrays (the tiles, covered) and the reference
    with the same two (its stages, read entry by entry). -/
theorem algebraic : Cert.algebraic_KernelIdeal_ReferenceIdeal := by
  intro m ρ m' ρ' _ hagree
  refine ⟨fun c => Cert.LstmCell.Tiles.hiddenOf m c, fun c => Cert.LstmCell.Tiles.cellOf m c, Cert.LstmCell.Tiles.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [a0, a1, a2, a3, a4, a5, a6, a7, a8, a9, a10, a11, a12, a13, a14]
    exact (Cert.ReferenceIdeal.Read.val_main_v40_eq _ _ _ _ _ _ _ _ _ _ _ _ _ _ _).trans
      (Cert.LstmCell.Ref.hidden_eq _ _ _ _ _ _ _ _ _ _ _ _ _ _ _)
  · obtain ⟨a0, a1, a2, a3, a4, a5, a6, a7, a8, a9, a10, a11, -, -, -⟩ := hagree c
    rw [a0, a1, a2, a3, a4, a5, a6, a7, a8, a9, a10, a11]
    exact (Cert.ReferenceIdeal.Read.val_main_v38_eq _ _ _ _ _ _ _ _ _ _ _ _).trans
      (Cert.LstmCell.Ref.cell_eq _ _ _ _ _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
